-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_tau_eff" .f32 0x40A00000#32 ((67108864 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S64x512 : Shape := ⟨2, ![64, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S131072x512 .f32) (main_arg1 : FVec F S64x512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  main_v8
-- ==== Kernel.lean ====
abbrev S131072x512 : Shape := ⟨2, ![131072, 512]⟩
abbrev S64x512 : Shape := ⟨2, ![64, 512]⟩
abbrev S_ : Shape := ⟨0, ![]⟩
abbrev S64 : Shape := ⟨1, ![64]⟩
abbrev S64x1 : Shape := ⟨2, ![64, 1]⟩
abbrev S512x64 : Shape := ⟨2, ![512, 64]⟩
abbrev S131072x64 : Shape := ⟨2, ![131072, 64]⟩
abbrev S2048x512 : Shape := ⟨2, ![2048, 512]⟩
abbrev S2048x64 : Shape := ⟨2, ![2048, 64]⟩
abbrev S2048 : Shape := ⟨1, ![2048]⟩
abbrev S2048x1 : Shape := ⟨2, ![2048, 1]⟩

abbrev nBuf : Space → Nat
  | .hbm => 16
  | .vmem => 10
  | .smem => 0
  | _ => 0

abbrev bufTy : (tb : Table) → Fin (tcTables nBuf tb) → BufTy
  | .hbm, ⟨0, _⟩ => ⟨S131072x512, .f32⟩
  | .hbm, ⟨1, _⟩ => ⟨S64x512, .f32⟩
  | .hbm, ⟨2, _⟩ => ⟨S64x512, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S64x512, .f32⟩
  | .hbm, ⟨11, _⟩ => ⟨S64x512, .f32⟩
  | .hbm, ⟨12, _⟩ => ⟨S512x64, .f32⟩
  | .hbm, ⟨13, _⟩ => ⟨S131072x512, .f32⟩
  | .hbm, ⟨14, _⟩ => ⟨S131072x64, .f32⟩
  | .hbm, ⟨15, _⟩ => ⟨S131072x64, .f32⟩
  | .local _ .vmem, ⟨0, _⟩ => ⟨S2048x512, .f32⟩
  | .local _ .vmem, ⟨1, _⟩ => ⟨S2048x512, .f32⟩
  | .local _ .vmem, ⟨2, _⟩ => ⟨S512x64, .f32⟩
  | .local _ .vmem, ⟨3, _⟩ => ⟨S64x512, .f32⟩
  | .local _ .vmem, ⟨4, _⟩ => ⟨S2048x512, .f32⟩
  | .local _ .vmem, ⟨5, _⟩ => ⟨S2048x512, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S64x512_S64_d1 : S64x512.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  transposes_S64x512_S512x64_1_0 : S64x512.Transposes [1, 0] S512x64
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S2048x1_S2048x64 : S2048x1.Broadcasts S2048x64
  reduces_S2048x64_S2048 : S2048x64.Reduces [1] S2048
  inb_S64x512_S64x512_0_0 : ∀ a, (![0, 0] : Fin 2 → Nat) a + S64x512.size a ≤ S64x512.size a
  h_S64x512 : 0 < S64x512.numel
  inb_S2048x64_S2048x64_0_0 : ∀ a, (![0, 0] : Fin 2 → Nat) a + S2048x64.size a ≤ S2048x64.size a
  h_S2048x64 : 0 < S2048x64.numel
  dot_S2048x512_S512x64_S2048x64_1_0_0_1_n_n_wf : DotDims.WF S2048x512 S512x64 S2048x64 [1] [0] [0] [1] [] []
  dot_S2048x64_S64x512_S2048x512_1_0_0_1_n_n_wf : DotDims.WF S2048x64 S64x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .f32 = 32 ∨ (Rect.block (s := S131072x512) S2048x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S131072x64.size a
  hwx0_4 : ∀ i : grid0.Coords, EltTy.bits .f32 = 32 ∨ (Rect.block (s := S131072x64) S2048x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S131072x64.size a
  hwx0_5 : ∀ i : grid0.Coords, EltTy.bits .f32 = 32 ∨ (Rect.block (s := S131072x64) S2048x64.size (cc0_transform_5 i) (hinb0_5 i)).WholeWords (EltTy.packing .f32)

variable [Facts₀]

def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S2048x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S2048x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x512 : Shape := ⟨2, ![131072, 512]⟩
abbrev S64x512 : Shape := ⟨2, ![64, 512]⟩
abbrev S_ : Shape := ⟨0, ![]⟩
abbrev S64 : Shape := ⟨1, ![64]⟩
abbrev S64x1 : Shape := ⟨2, ![64, 1]⟩
abbrev S131072 : Shape := ⟨1, ![131072]⟩
abbrev S131072x1 : Shape := ⟨2, ![131072, 1]⟩
abbrev S131072x64 : Shape := ⟨2, ![131072, 64]⟩

abbrev nBuf : Space → Nat
  | .hbm => 41
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S64x512, .f32⟩
  | .hbm, ⟨2, _⟩ => ⟨S64x512, .f32⟩
  | .hbm, ⟨3, _⟩ => ⟨S_, .f32⟩
  | .hbm, ⟨4, _⟩ => ⟨S64, .f32⟩
  | .hbm, ⟨5, _⟩ => ⟨S64x1, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S64x512, .f32⟩
  | .hbm, ⟨11, _⟩ => ⟨S64x512, .f32⟩
  | .hbm, ⟨12, _⟩ => ⟨S131072x512, .f32⟩
  | .hbm, ⟨13, _⟩ => ⟨S_, .f32⟩
  | .hbm, ⟨14, _⟩ => ⟨S131072, .f32⟩
  | .hbm, ⟨15, _⟩ => ⟨S131072x1, .f32⟩
  | .hbm, ⟨16, _⟩ => ⟨S131072x1, .f32⟩
  | .hbm, ⟨17, _⟩ => ⟨S_, .f32⟩
  | .hbm, ⟨18, _⟩ => ⟨S131072x1, .f32⟩
  | .hbm, ⟨19, _⟩ => ⟨S131072x1, .f32⟩
  | .hbm, ⟨20, _⟩ => ⟨S131072x512, .f32⟩
  | .hbm, ⟨21, _⟩ => ⟨S131072x512, .f32⟩
  | .hbm, ⟨22, _⟩ => ⟨S131072x64, .f32⟩
  | .hbm, ⟨23, _⟩ => ⟨S_, .f32⟩
  | .hbm, ⟨24, _⟩ => ⟨S131072x64, .f32⟩
  | .hbm, ⟨25, _⟩ => ⟨S131072x64, .f32⟩
  | .hbm, ⟨26, _⟩ => ⟨S_, .f32⟩
  | .hbm, ⟨27, _⟩ => ⟨S131072, .f32⟩
  | .hbm, ⟨28, _⟩ => ⟨S_, .f32⟩
  | .hbm, ⟨29, _⟩ => ⟨S131072, .f32⟩
  | .hbm, ⟨30, _⟩ => ⟨S131072, .f32⟩
  | .hbm, ⟨31, _⟩ => ⟨S131072x1, .f32⟩
  | .hbm, ⟨32, _⟩ => ⟨S131072x64, .f32⟩
  | .hbm, ⟨33, _⟩ => ⟨S131072x64, .f32⟩
  | .hbm, ⟨34, _⟩ => ⟨S131072x64, .f32⟩
  | .hbm, ⟨35, _⟩ => ⟨S_, .f32⟩
  | .hbm, ⟨36, _⟩ => ⟨S131072, .f32⟩
  | .hbm, ⟨37, _⟩ => ⟨S131072x1, .f32⟩
  | .hbm, ⟨38, _⟩ => ⟨S131072x64, .f32⟩
  | .hbm, ⟨39, _⟩ => ⟨S131072x64, .f32⟩
  | .hbm, ⟨40, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩

abbrev nD : Nat := 1
abbrev τ : Topo := Topo.v7x

variable {F : FTy → Type} [FloatOps F]

class Facts₀ : Prop where
  reducesTo_S64x512_S64_d1 : S64x512.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  bcast_S64x1_S64x512_0_1 : S64x1.BroadcastsInDim S64x512 (![0, 1] : Fin 2 → Fin S64x512.rank)
  reducesTo_S131072x512_S131072_d1 : S131072x512.ReducesTo [1] S131072
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x512_0_1 : S131072x1.BroadcastsInDim S131072x512 (![0, 1] : Fin 2 → Fin S131072x512.rank)
  bcast_S_S131072x64 : S_.BroadcastsInDim S131072x64 (![] : Fin 0 → Fin S131072x64.rank)
  reducesTo_S131072x64_S131072_d1 : S131072x64.ReducesTo [1] S131072
  bcast_S_S131072 : S_.BroadcastsInDim S131072 (![] : Fin 0 → Fin S131072.rank)
  bcast_S131072x1_S131072x64_0_1 : S131072x1.BroadcastsInDim S131072x64 (![0, 1] : Fin 2 → Fin S131072x64.rank)
  dot_S131072x512_S64x512_S131072x64_1_1_0_0_n_n_wf : DotDims.WF S131072x512 S64x512 S131072x64 [1] [1] [0] [0] [] []
  dot_S131072x64_S64x512_S131072x512_1_0_0_1_n_n_wf : DotDims.WF S131072x64 S64x512 S131072x512 [1] [0] [0] [1] [] []

variable [Facts₀]

def dot_S131072x512_S64x512_S131072x64_1_1_0_0_n_n : DotDims S131072x512 S64x512 S131072x64 where
  lhsContracting := [1]
  rhsContracting := [1]
  lhsNonContracting := [0]
  rhsNonContracting := [0]
  lhsBatch := []
  rhsBatch := []
  wf := dot_S131072x512_S64x512_S131072x64_1_1_0_0_n_n_wf
def dot_S131072x64_S64x512_S131072x512_1_0_0_1_n_n : DotDims S131072x64 S64x512 S131072x512 where
  lhsContracting := [1]
  rhsContracting := [0]
  lhsNonContracting := [0]
  rhsNonContracting := [1]
  lhsBatch := []
  rhsBatch := []
  wf := dot_S131072x64_S64x512_S131072x512_1_0_0_1_n_n_wf

class Facts : Prop extends Facts₀ where

variable [Facts]
-- ==== Proof.LibScaleSum.lean ====
/-
  A nonnegative real factor and a finite sum on the extended reals.

  The extended reals' product does not distribute over the sum in general (the sum of `⊤` and `⊥` is `⊥`), but it
  does for a factor that is a nonnegative real. So such a factor moves out of a finite sum, and a sum of products
  whose left factors were all scaled by it is the sum of the unscaled products, scaled.
-/
import Mathlib.Data.EReal.Operations
import Mathlib.Data.EReal.Inv
import Mathlib.Algebra.BigOperators.Group.Finset.Basic
import Mathlib.Data.Fintype.Basic
import Mathlib.Data.Fintype.BigOperators

namespace Cert.Lib

open scoped BigOperators

/-- A factor `s` with `0 ≤ s` and `s ≠ ⊤` moves out of a finite sum of extended reals: by induction on the index
    set, each step by the distributive law that holds for such a factor. -/
theorem sum_mul_of_nonneg_of_ne_top {ι : Type} (t : Finset ι) (f : ι → EReal) {s : EReal} (h0 : 0 ≤ s) (ht : s ≠ ⊤) :
    (∑ k ∈ t, f k) * s = ∑ k ∈ t, f k * s := by
  classical
  induction t using Finset.induction_on with
  | empty => simp
  | insert a t ha ih =>
    rw [Finset.sum_insert ha, Finset.sum_insert ha, EReal.right_distrib_of_nonneg_of_ne_top h0 ht, ih]

/-- Scaling every left factor of a sum of products over `Fin K` by a nonnegative real `s` scales the sum:
    `(a k * s) * w k = (a k * w k) * s` termwise, and `s` moves out of the sum. -/
theorem sum_scaled_mul_eq {K : ℕ} (a w : Fin K → EReal) {s : EReal} (h0 : 0 ≤ s) (ht : s ≠ ⊤) :
    ∑ k : Fin K, (a k * s) * w k = (∑ k : Fin K, a k * w k) * s := by
  rw [sum_mul_of_nonneg_of_ne_top Finset.univ _ h0 ht]
  exact Finset.sum_congr rfl fun k _ => mul_right_comm (a k) s (w k)

end Cert.Lib
-- ==== Proof.BankSpec.lean ====
/-
  The prototype bank, one row at a time, on the extended reals.

  A segment row `x` (512 numbers) is scored against each of 64 prototype rows. With `‖v‖ε = max (√(∑ v²)) ε` the
  Euclidean norm kept from below by the floor `ε` (the f32 word of 1e-12), and `v̂ = v / ‖v‖ε` the row over that
  norm, the score of `x` against a prototype `q` is the cosine similarity over a temperature `τ`:

      logit = (∑ d, x̂ d · q̂ d) / τ,          τ the f32 word of 0.2 = 13421773 / 67108864.

  The scores of a row become weights by the softmax shifted by the row's largest score,
  `w k = exp (l k − max l) / ∑ j, exp (l j − max l)`, and the row's pattern is the weights' blend of the raw
  prototypes, `∑ k, w k · Q (k, d)`.

  The score can be formed in a second way: take the product of the UNNORMALISED row with `q̂` and scale the one
  number that results, `(∑ d, x d · q̂ d) · ((1 / ‖x‖ε) · c)`, with `c` the reciprocal of the temperature. The two
  ways agree on every extended real (`logitScaled_eq_logitCosine`), with nothing assumed finite: `‖x‖ε ≥ ε > 0`, so
  dividing by it is multiplying by its inverse, and that inverse is a nonnegative real number (it is 0 when the
  norm is infinite) — exactly the kind of factor that moves out of a finite sum of extended reals; dividing by the
  real `τ` is multiplying by `c = 1 / τ = 67108864 / 13421773`; and the extended reals' product is associative.
-/
import Idealize.ShloMosaic.PureOps.Ideal
import Idealize.ShloMosaic.PureOps.Ideal.Laws
import Idealize.ShloMosaic.Lib.ValueIdx
import proofs.«405821_j82695300317837_3_alg».proof.Proof.LibScaleSum

noncomputable section

open scoped BigOperators

namespace Cert.Bank

open Idealize.ShloMosaic Idealize.ShloMosaic.ValueIdx

/-! ## A row's norm, and the two forms of a score -/

/-- The Euclidean norm of a row, kept from below by the floor `ε`. -/
def clampedNorm (v : Fin 512 → EReal) : EReal :=
  max (Ideal.sqrt (∑ d : Fin 512, v d * v d)) (Ideal.ofBits .f32 0x2B8CBCCC#32)

/-- A row over its clamped norm. -/
def unitRow (v : Fin 512 → EReal) : Fin 512 → EReal := fun d => Ideal.div (v d) (clampedNorm v)

/-- The score formed from the unnormalised row: the product with `p`, then ONE scaling by `(1 / ‖x‖ε) · c`. -/
def logitScaled (c : EReal) (x p : Fin 512 → EReal) : EReal :=
  (∑ d : Fin 512, x d * p d) * (Ideal.div (Ideal.ofBits .f32 0x3F800000#32) (clampedNorm x) * c)

/-- The score formed from the normalised row: the product of `x̂` with `p`, over the temperature. -/
def logitCosine (x p : Fin 512 → EReal) : EReal :=
  Ideal.div (∑ d : Fin 512, unitRow x d * p d) (Ideal.ofBits .f32 0x3E4CCCCD#32)

/-! ## Weights and pattern of a row of scores -/

/-- The largest score of a row, taken from `−∞`. -/
def rowShift (l : Fin 64 → EReal) : EReal :=
  max (Ideal.ofBits .f32 0xFF800000#32) ((Finset.univ : Finset (Fin 64)).fold max (Ideal.ofBits .f32 0xFF800000#32) l)

/-- The softmax weight of score `k` in its row. -/
def weight (l : Fin 64 → EReal) (k : Fin 64) : EReal :=
  Ideal.div (Ideal.exp (l k - rowShift l)) (∑ j : Fin 64, Ideal.exp (l j - rowShift l))

/-- The blend of the raw prototypes' column `d` by a row of weights. -/
def blend (w : Fin 64 → EReal) (Q : (⟨2, ![64, 512]⟩ : Shape).Idx → EReal) (d : Fin 512) : EReal :=
  ∑ k : Fin 64, w k * Q (ix2 k d)

/-! ## The three result arrays, over any way `ℓ` of scoring a row against a unit prototype -/

/-- Row `r` of an array of 512-wide rows. -/
def rowOf {n : ℕ} (X : (⟨2, ![n, 512]⟩ : Shape).Idx → EReal) (r : Fin n) : Fin 512 → EReal := fun d => X (ix2 r d)

/-- The scores of row `r` of `X` against the 64 unit prototypes. -/
def scoresOf {n : ℕ} (ℓ : (Fin 512 → EReal) → (Fin 512 → EReal) → EReal) (X : (⟨2, ![n, 512]⟩ : Shape).Idx → EReal)
    (Q : (⟨2, ![64, 512]⟩ : Shape).Idx → EReal) (r : Fin n) : Fin 64 → EReal :=
  fun k => ℓ (rowOf X r) (unitRow (rowOf Q k))

/-- The array of scores. -/
def logitsArr {n : ℕ} (ℓ : (Fin 512 → EReal) → (Fin 512 → EReal) → EReal) (X : (⟨2, ![n, 512]⟩ : Shape).Idx → EReal)
    (Q : (⟨2, ![64, 512]⟩ : Shape).Idx → EReal) : (⟨2, ![n, 64]⟩ : Shape).Idx → EReal :=
  fun i => scoresOf ℓ X Q (i 0) (i 1)

/-- The array of weights. -/
def weightsArr {n : ℕ} (ℓ : (Fin 512 → EReal) → (Fin 512 → EReal) → EReal) (X : (⟨2, ![n, 512]⟩ : Shape).Idx → EReal)
    (Q : (⟨2, ![64, 512]⟩ : Shape).Idx → EReal) : (⟨2, ![n, 64]⟩ : Shape).Idx → EReal :=
  fun i => weight (scoresOf ℓ X Q (i 0)) (i 1)

/-- The array of patterns. -/
def patternArr {n : ℕ} (ℓ : (Fin 512 → EReal) → (Fin 512 → EReal) → EReal) (X : (⟨2, ![n, 512]⟩ : Shape).Idx → EReal)
    (Q : (⟨2, ![64, 512]⟩ : Shape).Idx → EReal) : (⟨2, ![n, 512]⟩ : Shape).Idx → EReal :=
  fun i => blend (weight (scoresOf ℓ X Q (i 0))) Q (i 1)

/-! ## The words -/

/-- The floor `ε` is a positive real: its word has exponent field 87 and significand 2²³ + 834764. -/
theorem floor_pos : (0 : EReal) < Ideal.ofBits .f32 0x2B8CBCCC#32 := by
  simp [Ideal.ofBits, Ideal.ieee, -EReal.coe_mul]

/-- The word 0x3F800000 denotes 1. -/
theorem one_word : Ideal.ofBits .f32 0x3F800000#32 = 1 := by
  simp [Ideal.ofBits, Ideal.ieee, -EReal.coe_mul]; norm_num

/-- The temperature's word has exponent field 124 and significand 2²³ + 5033165: it denotes 13421773 / 2²⁶. -/
theorem temperature_word : Ideal.ofBits .f32 0x3E4CCCCD#32 = ((13421773 / 67108864 : ℝ) : EReal) := by
  simp [Ideal.ofBits, Ideal.ieee, -EReal.coe_mul]; norm_num

/-- Dividing by the temperature is multiplying by its reciprocal, on every extended real. -/
theorem div_temperature (y : EReal) :
    Ideal.div y (Ideal.ofBits .f32 0x3E4CCCCD#32) = y * ((67108864 / 13421773 : ℝ) : EReal) := by
  rw [temperature_word, Ideal.div_coe (by norm_num : (13421773 / 67108864 : ℝ) ≠ 0)]
  congr 2
  norm_num

/-! ## The law -/

/-- The clamped norm is positive. -/
theorem clampedNorm_pos (v : Fin 512 → EReal) : 0 < clampedNorm v := lt_max_of_lt_right floor_pos

/-- Dividing by a clamped norm is multiplying by its inverse. -/
theorem div_clampedNorm (v : Fin 512 → EReal) (a : EReal) : Ideal.div a (clampedNorm v) = a * (clampedNorm v)⁻¹ := by
  rw [Ideal.div, if_neg (ne_of_gt (clampedNorm_pos v))]

/-- The two ways of forming a score agree, on all extended reals. -/
theorem logitScaled_eq_logitCosine (x p : Fin 512 → EReal) :
    logitScaled ((67108864 / 13421773 : ℝ) : EReal) x p = logitCosine x p := by
  unfold logitScaled logitCosine unitRow
  rw [div_temperature, div_clampedNorm, one_word, one_mul]
  have h : (∑ d : Fin 512, Ideal.div (x d) (clampedNorm x) * p d) = (∑ d : Fin 512, x d * p d) * (clampedNorm x)⁻¹ := by
    rw [← Cert.Lib.sum_scaled_mul_eq x p (EReal.inv_nonneg_of_nonneg (clampedNorm_pos x).le) (EReal.inv_lt_top _).ne]
    exact Finset.sum_congr rfl fun d _ => by rw [div_clampedNorm]
  rw [h, mul_assoc]

end Cert.Bank

end
-- ==== Proof.LibPlainMatmul.lean ====
/-
  A plain matrix product read at an index.

  `DotDims.plain M K N` contracts axis 1 of an `M × K` operand with axis 0 of a `K × N` operand, with no batch
  axis. At the ideal values a `tpu.matmul` with these dimension numbers into the zero accumulator is, at
  `(i, j)`, the sum over `k : Fin K` of `l (i, k) * r (k, j)` on the extended reals: the library's sum over the
  contraction shape's indices (`Ideal.matmul_constant_zero_apply`) re-indexed by the one coordinate of that shape
  (`ValueIdx.contrEquiv1`), the operand indices read off the dimension numbers.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The left operand's index at result `j` and contraction coordinate `k` is `(j 0, k)`. -/
theorem plain_lhsIdx (M K N : ℕ) (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at result `j` and contraction coordinate `k` is `(k, j 1)`. -/
theorem plain_rhsIdx (M K N : ℕ) (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- A plain matmul into the zero accumulator, at an index: the sum of the products along the contracted axis. -/
theorem matmul_plain_zero_apply {φ₁ φ₂ : FTy} (M K N : ℕ) (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) := by
  rw [Ideal.matmul_constant_zero_apply, ← Equiv.sum_comp (contrEquiv1 (DotDims.plain M K N) K rfl rfl).symm]
  refine Finset.sum_congr rfl fun k _ => ?_
  rw [plain_lhsIdx, plain_rhsIdx]
  rfl

end Cert.Lib

end
-- ==== Proof.LibKeepdims.lean ====
/-
  Column vectors made by `keepdims`: a length-`a` vector viewed as an `[a, 1]` column, and such a column broadcast along
  the rows of an `[a, b]` array. Read at an index by coordinates, the column holds the vector's entry of its row, and the
  broadcast holds the column's entry of its row at every position of the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.BankBlock.lean ====
/-
  One grid point of the kernel: a block of 2048 segment rows against the 64 prototypes.

  The body reads a block `x` of segment rows, the transposed unit prototypes `pT` (512 × 64) and the raw
  prototypes `Q` (64 × 512). Read at an index, its three stored values are the row-wise functions of the
  specification:
    * the score block at `(p, k)` is the scaled product of row `p` of `x` with column `k` of `pT`;
    * the weight block at `(p, k)` is the softmax weight of score `k` in row `p`'s scores;
    * the pattern block at `(p, d)` is the blend of `Q`'s column `d` by row `p`'s weights.
  The matrix products are sums along the contracted axis (their bf16 operands are the same extended reals), a sum or
  a maximum along a row is one over that row's 64 or 512 coordinates, and a `keepdims` column broadcast back along
  its rows holds, at every position of a row, that row's one number.
-/
import proofs.«405821_j82695300317837_3_alg».proof.Proof.Gen.KernelIdeal.Value
import Idealize.ShloMosaic.Lib.Pipeline.Value
import Idealize.ShloMosaic.Lib.ValueIdx
import Idealize.ShloMosaic.PureOps.Ideal.Laws
import Idealize.ShloMosaic.PureOps.IdealRules
import proofs.«405821_j82695300317837_3_alg».proof.Proof.BankSpec
import proofs.«405821_j82695300317837_3_alg».proof.Proof.LibPlainMatmul
import proofs.«405821_j82695300317837_3_alg».proof.Proof.LibKeepdims

noncomputable section

open scoped BigOperators

namespace Cert.Bank.Block

open Cert.KernelIdeal Cert.KernelIdeal.Gen Idealize.ShloMosaic Idealize.ShloMosaic.ValueIdx

/-- The reciprocal of the temperature, by its name in the kernel's table. -/
abbrev invTemp : EReal := ((67108864 / 13421773 : ℝ) : EReal)

/-- The kernel's named scale denotes the reciprocal of the temperature. -/
theorem inv_temperature :
    Named.named (F := Ideal) Cert.KernelIdeal.κ "inv_tau_eff" (φ := .f32) 0x40A00000#32 = invTemp :=
  IdealRules.named_const.ideal_named_scalar _ _ _ _ rfl

/-! ## Indices -/

/-- Summing a 2048 × 512 block along its rows: the index put back at row `p`, coordinate `d`, is `(p, d)`. -/
theorem lift512 (p : Fin 2048) (d : Fin 512) : reduces_S2048x512_S2048.lift (ix1 p) d = ix2 p d := by
  funext a; apply Fin.ext
  match a with
  | ⟨0, _⟩ => rfl
  | ⟨1, _⟩ => rfl

/-- The same for a 2048 × 64 block. -/
theorem lift64 (p : Fin 2048) (k : Fin 64) : reduces_S2048x64_S2048.lift (ix1 p) k = ix2 p k := by
  funext a; apply Fin.ext
  match a with
  | ⟨0, _⟩ => rfl
  | ⟨1, _⟩ => rfl

/-! ## The clamped norm of a block's row -/

/-- The sum of a row's squares. -/
theorem rowSumSq (v : FVec Ideal S2048x512 .f32) (p : Fin 2048) :
    multiReduction .add [1] S2048 (mulf v v) 0x00000000#32 reduces_S2048x512_S2048 (.inl rfl) rfl (ix1 p)
      = ∑ d : Fin 512, v (ix2 p d) * v (ix2 p d) :=
  (Ideal.multiReduction_add_single (mulf v v) 0x00000000#32 reduces_S2048x512_S2048 (.inl rfl) rfl (ix1 p)).trans
    (Finset.sum_congr rfl fun d _ => congrArg (fun i => v i * v i) (lift512 p d))

/-- The column of clamped norms, at row `p`. -/
theorem clamp_apply (v : FVec Ideal S2048x512 .f32) (p : Fin 2048) :
    maximumf (sqrt (shapeCast S2048x1 (multiReduction .add [1] S2048 (mulf v v) 0x00000000#32 reduces_S2048x512_S2048 (.inl rfl) rfl)
        shapeCasts_S2048_S2048x1)) (broadcast S2048x1 (FloatOps.ofBits (F := Ideal) .f32 0x2B8CBCCC#32)) (ix2 p (0 : Fin 1))
      = clampedNorm (fun d => v (ix2 p d)) :=
  congrArg (fun s => max (Ideal.sqrt s) (Ideal.ofBits .f32 0x2B8CBCCC#32))
    ((Cert.Lib.shapeCast_a_a1_apply _ shapeCasts_S2048_S2048x1 p 0).trans (rowSumSq v p))

/-! ## The scores -/

/-- The score block at `(p, k)`. -/
theorem pay1_apply (x0 : FVec Ideal S2048x512 .f32) (x1 : FVec Ideal S512x64 .f32) (p : Fin 2048) (k : Fin 64) :
    k0_pay1 (F := Ideal) x0 x1 (ix2 p k) = logitScaled invTemp (fun d => x0 (ix2 p d)) (fun d => x1 (ix2 d k)) := by
  unfold k0_pay1 logitScaled
  dsimp only
  refine (mulf_apply _ _ _).trans (congrArg₂ (· * ·) ?_ ?_)
  · -- the product of row p with column k
    refine (Cert.Lib.matmul_plain_zero_apply 2048 512 64 none _ _ (ix2 p k)).trans ?_
    refine Finset.sum_congr rfl fun d _ => ?_
    rw [shapeCast_self]
    rfl
  · -- the scale: the column (1 / ‖x‖ε) · c, broadcast along the row
    refine (Cert.Lib.broadcastTo_a1_ab_apply _ broadcasts_S2048x1_S2048x64 p k).trans ?_
    refine (mulf_apply _ _ _).trans (congrArg₂ (· * ·) ?_ inv_temperature)
    exact congrArg (Ideal.div (Ideal.ofBits .f32 0x3F800000#32)) (clamp_apply x0 p)

/-! ## The weights -/

/-- The column of row maxima of a score block, taken from `−∞`. -/
def shiftCol (L : FVec Ideal S2048x64 .f32) : FVec Ideal S2048 .f32 :=
  maximumf (broadcast S2048 (Scalar.ofBits .f32 0xFF800000#32))
    (multiReduction .maximumf [1] S2048 L 0xFF800000#32 reduces_S2048x64_S2048 (.inl rfl) rfl)

/-- The exponentials of the scores less their row's maximum. -/
def shifted (L : FVec Ideal S2048x64 .f32) : FVec Ideal S2048x64 .f32 :=
  exp (subf L (broadcastTo S2048x64 (shapeCast S2048x1 (shiftCol L) shapeCasts_S2048_S2048x1) broadcasts_S2048x1_S2048x64))

/-- The body's softmax of a score block: each exponential over its row's sum. -/
def softmaxBlock (L : FVec Ideal S2048x64 .f32) : FVec Ideal S2048x64 .f32 :=
  divf (shifted L) (broadcastTo S2048x64 (shapeCast S2048x1
    (multiReduction .add [1] S2048 (shifted L) 0x00000000#32 reduces_S2048x64_S2048 (.inl rfl) rfl)
    shapeCasts_S2048_S2048x1) broadcasts_S2048x1_S2048x64)

/-- The weight payload is the softmax of the score payload. -/
theorem pay2_eq (x0 : FVec Ideal S2048x512 .f32) (x1 : FVec Ideal S512x64 .f32) :
    k0_pay2 (F := Ideal) x0 x1 = softmaxBlock (k0_pay1 (F := Ideal) x0 x1) := rfl

/-- A `keepdims` column of a length-2048 vector, broadcast along 64-wide rows, read at `(p, k)`. -/
theorem column_apply (v : FVec Ideal S2048 .f32) (p : Fin 2048) (k : Fin 64) :
    broadcastTo S2048x64 (shapeCast S2048x1 v shapeCasts_S2048_S2048x1) broadcasts_S2048x1_S2048x64 (ix2 p k) = v (ix1 p) :=
  (Cert.Lib.broadcastTo_a1_ab_apply _ broadcasts_S2048x1_S2048x64 p k).trans
    (Cert.Lib.shapeCast_a_a1_apply v shapeCasts_S2048_S2048x1 p 0)

/-- Row `p`'s maximum. -/
theorem shiftCol_apply (L : FVec Ideal S2048x64 .f32) (p : Fin 2048) :
    shiftCol L (ix1 p) = rowShift (fun k => L (ix2 p k)) :=
  congrArg (max (Ideal.ofBits .f32 0xFF800000#32))
    ((Ideal.multiReduction_maximumf_single L 0xFF800000#32 reduces_S2048x64_S2048 (.inl rfl) rfl (ix1 p)).trans
      (congrArg (Finset.univ.fold max (Ideal.ofBits .f32 0xFF800000#32)) (funext fun k => congrArg L (lift64 p k))))

/-- A shifted exponential at `(p, k)`. -/
theorem shifted_apply (L : FVec Ideal S2048x64 .f32) (p : Fin 2048) (k : Fin 64) :
    shifted L (ix2 p k) = Ideal.exp (L (ix2 p k) - rowShift (fun j => L (ix2 p j))) :=
  congrArg (fun s => Ideal.exp (L (ix2 p k) - s)) ((column_apply (shiftCol L) p k).trans (shiftCol_apply L p))

/-- The softmax of a score block at `(p, k)` is the weight of score `k` in row `p`. -/
theorem softmaxBlock_apply (L : FVec Ideal S2048x64 .f32) (p : Fin 2048) (k : Fin 64) :
    softmaxBlock L (ix2 p k) = weight (fun j => L (ix2 p j)) k :=
  congrArg₂ Ideal.div (shifted_apply L p k)
    ((column_apply _ p k).trans
      ((Ideal.multiReduction_add_single (shifted L) 0x00000000#32 reduces_S2048x64_S2048 (.inl rfl) rfl (ix1 p)).trans
        (Finset.sum_congr rfl fun j _ => (congrArg (shifted L) (lift64 p j)).trans (shifted_apply L p j))))

/-- The weight block at `(p, k)`. -/
theorem pay2_apply (x0 : FVec Ideal S2048x512 .f32) (x1 : FVec Ideal S512x64 .f32) (p : Fin 2048) (k : Fin 64) :
    k0_pay2 (F := Ideal) x0 x1 (ix2 p k)
      = weight (fun j => logitScaled invTemp (fun d => x0 (ix2 p d)) (fun d => x1 (ix2 d j))) k := by
  rw [pay2_eq, softmaxBlock_apply]
  exact congrArg (fun l => weight l k) (funext fun j => pay1_apply x0 x1 p j)

/-! ## The patterns -/

/-- The pattern block at `(p, d)`. -/
theorem pay3_apply (x0 : FVec Ideal S2048x512 .f32) (x1 : FVec Ideal S512x64 .f32) (x2 : FVec Ideal S64x512 .f32)
    (p : Fin 2048) (d : Fin 512) :
    k0_pay3 (F := Ideal) x0 x1 x2 (ix2 p d)
      = blend (weight (fun j => logitScaled invTemp (fun e => x0 (ix2 p e)) (fun e => x1 (ix2 e j)))) x2 d := by
  unfold k0_pay3 blend
  refine (Cert.Lib.matmul_plain_zero_apply 2048 64 512 none _ _ (ix2 p d)).trans ?_
  exact Finset.sum_congr rfl fun k _ => congrArg (· * x2 (ix2 k d)) (pay2_apply x0 x1 p k)

end Cert.Bank.Block

end
-- ==== Proof.BankRef.lean ====
/-
  The reference, read stage by stage: its three results are the specification's arrays with the score formed
  from the NORMALISED row (`logitCosine`).

  `%4` and `%9` are the prototypes and the segment rows over their clamped norms; `%12` contracts them along the
  512 coordinates and divides by the temperature; `%15` is each row's largest score, from `−∞`; `%23` the
  exponentials of the shifted scores over their row's sum; `%24` the weights' product with the raw prototypes. A
  host sum starts from the zero word, which adds nothing.
-/
import proofs.«405821_j82695300317837_3_alg».proof.Proof.Gen.ReferenceIdeal.Read
import Idealize.ShloMosaic.PureOps.Reduce
import proofs.«405821_j82695300317837_3_alg».proof.Proof.BankSpec

noncomputable section

open scoped BigOperators

namespace Cert.Bank.Ref

open Cert.ReferenceIdeal Cert.ReferenceIdeal.Gen Cert.ReferenceIdeal.Read Idealize.ShloMosaic Idealize.ShloMosaic.ValueIdx

/-- The segment rows, as the reference's first argument. -/
abbrev SegArr : Type := (⟨S131072x512, .f32⟩ : BufTy).Contents (Elt Ideal)
/-- The prototypes, as its second. -/
abbrev ProtoArr : Type := (⟨S64x512, .f32⟩ : BufTy).Contents (Elt Ideal)

/-! ## The unit rows -/

/-- `%4` at `(k, d)`: prototype `k` over its clamped norm. -/
theorem unitProto_apply (Q : ProtoArr) (k : Fin 64) (d : Fin 512) :
    val_main_v4 (F := Ideal) Q (ix2 k d) = unitRow (rowOf (n := 64) Q k) d := by
  have hidx : ∀ e : Fin 512, idx_main_call0_v1 (idx_main_call0_v2 (idx_main_v3 (ix2 k d))) e = ix2 k e := fun e =>
    funext fun a => Fin.ext (by match a with | ⟨0, _⟩ => rfl | ⟨1, _⟩ => rfl)
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, hidx, Ideal.hostDivf_def, Ideal.maximumf_def, Ideal.hostUnary_sqrt_def,
    Ideal.mulf_def, Ideal.ofBits_def, Ideal.ofBits_zero_f32, zero_add]
  rfl

/-- `%9` at `(r, d)`: segment row `r` over its clamped norm. -/
theorem unitSeg_apply (X : SegArr) (r : Fin 131072) (d : Fin 512) :
    val_main_v9 (F := Ideal) X (ix2 r d) = unitRow (rowOf (n := 131072) X r) d := by
  have hidx : ∀ e : Fin 512, idx_main_call1_v1 (idx_main_call1_v2 (idx_main_v8 (ix2 r d))) e = ix2 r e := fun e =>
    funext fun a => Fin.ext (by match a with | ⟨0, _⟩ => rfl | ⟨1, _⟩ => rfl)
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, hidx, Ideal.hostDivf_def, Ideal.maximumf_def, Ideal.hostUnary_sqrt_def,
    Ideal.mulf_def, Ideal.ofBits_def, Ideal.ofBits_zero_f32, zero_add]
  rfl

/-! ## The scores -/

/-- `%12` at `(r, k)`. -/
theorem logits_apply (X : SegArr) (Q : ProtoArr) (r : Fin 131072) (k : Fin 64) :
    val_main_v12 (F := Ideal) X Q (ix2 r k) = scoresOf logitCosine (n := 131072) X Q r k := by
  have hl : ∀ e : Fin 512, lidx_main_v10 (ix2 r k) e = ix2 r e := fun e =>
    funext fun a => Fin.ext (by match a with | ⟨0, _⟩ => rfl | ⟨1, _⟩ => rfl)
  have hr : ∀ e : Fin 512, ridx_main_v10 (ix2 r k) e = ix2 k e := fun e =>
    funext fun a => Fin.ext (by match a with | ⟨0, _⟩ => rfl | ⟨1, _⟩ => rfl)
  rw [val_main_v12_apply, val_main_v10_apply, val_main_v11_apply, val_main_cst_1_apply]
  simp only [hl, hr, unitSeg_apply, unitProto_apply, Ideal.hostDivf_def, Ideal.ofBits_def]
  rfl

/-- `%12` is the array of scores. -/
theorem logits_eq (X : SegArr) (Q : ProtoArr) : val_main_v12 (F := Ideal) X Q = logitsArr logitCosine (n := 131072) X Q :=
  funext fun i => by
    obtain ⟨r, k, rfl⟩ : ∃ (r : Fin 131072) (k : Fin 64), i = ix2 r k := ⟨i 0, i 1, eq_ix2 i⟩
    exact logits_apply X Q r k

/-! ## The weights -/

/-- Reducing a 131072 × 64 array along its rows: the index put back at row `r`, coordinate `k`, is `(r, k)`. -/
theorem lift64 (h : S131072x64.Reduces [1] S131072) (r : Fin 131072) (k : Fin 64) : h.lift (ix1 r) k = ix2 r k := by
  funext a; apply Fin.ext
  match a with
  | ⟨0, _⟩ => rfl
  | ⟨1, _⟩ => rfl

/-- `%15` at `r`: row `r`'s largest score, from `−∞`. -/
theorem shift_apply (X : SegArr) (Q : ProtoArr) (r : Fin 131072) :
    val_main_v15 (F := Ideal) X Q (ix1 r) = rowShift (fun k => val_main_v12 (F := Ideal) X Q (ix2 r k)) := by
  have hred : S131072x64.Reduces [1] S131072 := by decide
  rw [val_main_v15_apply, val_main_v14_apply, val_main_cst_3_apply]
  unfold val_main_v13
  rw [Host.reduce_eq_fold_single FloatOps.maximumf _ _ reducesTo_S131072x64_S131072_d1 hred h_S_ (ix1 r)]
  have hfun : (val_main_v12 (F := Ideal) X Q ∘ hred.lift (ix1 r)) = fun k => val_main_v12 (F := Ideal) X Q (ix2 r k) :=
    funext fun k => congrArg (val_main_v12 (F := Ideal) X Q) (lift64 hred r k)
  rw [hfun]
  rfl

/-- A shifted exponential, `%19` at `(r, k)`. -/
theorem shifted_apply (X : SegArr) (Q : ProtoArr) (r : Fin 131072) (k : Fin 64) :
    val_main_v19 (F := Ideal) X Q (ix2 r k)
      = Ideal.exp (val_main_v12 (F := Ideal) X Q (ix2 r k) - rowShift (fun j => val_main_v12 (F := Ideal) X Q (ix2 r j))) := by
  have hidx : idx_main_v16 (idx_main_v17 (ix2 r k)) = ix1 r :=
    funext fun a => Fin.ext (by match a with | ⟨0, _⟩ => rfl)
  rw [val_main_v19_apply, val_main_v18_apply, val_main_v17_apply, val_main_v16_apply, hidx, shift_apply]
  rfl

/-- `%23` at `(r, k)`: the weight of score `k` in row `r`. -/
theorem weights_apply (X : SegArr) (Q : ProtoArr) (r : Fin 131072) (k : Fin 64) :
    val_main_v23 (F := Ideal) X Q (ix2 r k) = weight (fun j => val_main_v12 (F := Ideal) X Q (ix2 r j)) k := by
  have hidx : idx_main_v21 (idx_main_v22 (ix2 r k)) = ix1 r :=
    funext fun a => Fin.ext (by match a with | ⟨0, _⟩ => rfl)
  have hsum : ∀ j : Fin 64, idx_main_v20 (ix1 r) j = ix2 r j := fun j =>
    funext fun a => Fin.ext (by match a with | ⟨0, _⟩ => rfl | ⟨1, _⟩ => rfl)
  rw [val_main_v23_apply, val_main_v22_apply, val_main_v21_apply, hidx, val_main_v20_apply, val_main_cst_4_apply]
  simp only [hsum, shifted_apply, Ideal.hostDivf_def, Ideal.ofBits_def, Ideal.ofBits_zero_f32, zero_add]
  rfl

/-- `%23` is the array of weights. -/
theorem weights_eq (X : SegArr) (Q : ProtoArr) : val_main_v23 (F := Ideal) X Q = weightsArr logitCosine (n := 131072) X Q :=
  funext fun i => by
    obtain ⟨r, k, rfl⟩ : ∃ (r : Fin 131072) (k : Fin 64), i = ix2 r k := ⟨i 0, i 1, eq_ix2 i⟩
    rw [weights_apply]
    exact congrArg (fun l => weight l k) (funext fun j => logits_apply X Q r j)

/-! ## The patterns -/

/-- `%24` is the array of patterns. -/
theorem pattern_eq (X : SegArr) (Q : ProtoArr) : val_main_v24 (F := Ideal) X Q = patternArr logitCosine (n := 131072) X Q :=
  funext fun i => by
    obtain ⟨r, d, rfl⟩ : ∃ (r : Fin 131072) (d : Fin 512), i = ix2 r d := ⟨i 0, i 1, eq_ix2 i⟩
    have hl : ∀ k : Fin 64, lidx_main_v24 (ix2 r d) k = ix2 r k := fun k =>
      funext fun a => Fin.ext (by match a with | ⟨0, _⟩ => rfl | ⟨1, _⟩ => rfl)
    have hr : ∀ k : Fin 64, ridx_main_v24 (ix2 r d) k = ix2 k d := fun k =>
      funext fun a => Fin.ext (by match a with | ⟨0, _⟩ => rfl | ⟨1, _⟩ => rfl)
    rw [val_main_v24_apply]
    simp only [hl, hr]
    refine Finset.sum_congr rfl fun k _ => congrArg (· * Q (ix2 k d)) ?_
    exact (congrFun (weights_eq X Q) (ix2 r k))

end Cert.Bank.Ref

end
-- ==== Proof.BankArray.lean ====
/-
  From grid points to whole arrays: what the kernel's run leaves in its three result arrays.

  The grid has 64 points; point `t` stages segment rows `2048·t … 2048·t + 2047` (all 512 columns), the whole
  512 × 64 array of transposed unit prototypes and the whole 64 × 512 array of raw prototypes, and writes back rows
  `2048·t … 2048·t + 2047` of each result. Row `p` of block `t` is row `2048·t + p` of the array, so what point `t`
  writes back is block `t` of ONE function of the argument arrays — the specification's arrays with the score in
  its scaled form — and, the 64 blocks tiling the rows, each result array ends holding that function.

  The transposed unit prototypes are computed on the host before the region by the very operations the reference
  applies to the prototypes, followed by a transpose: at `(d, k)` they hold prototype `k` over its clamped norm, at `d`.
-/
import proofs.«405821_j82695300317837_3_alg».proof.Proof.Gen.KernelIdeal.Value
import Idealize.ShloMosaic.Lib.StableHlo.Run
import proofs.«405821_j82695300317837_3_alg».proof.Proof.BankBlock
import proofs.«405821_j82695300317837_3_alg».proof.Proof.BankRef

noncomputable section

open scoped BigOperators

namespace Cert.Bank.Arr

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Bank.Block

variable (m : (ℓ : Loc nD τ sig) → Buf (Elt Ideal) ℓ) (ρ : Dev nD → PrngReg)

/-! ## The arrays and the blocks, by their literal shapes -/

/-- The segment rows as launched. -/
abbrev segArr (c : Dev nD) : FVec Ideal S131072x512 .f32 := m ((c : Thread nD τ).loc main_arg0)
/-- The raw prototypes as launched. -/
abbrev protoArr (c : Dev nD) : FVec Ideal S64x512 .f32 := m ((c : Thread nD τ).loc main_arg1)
/-- Point `t`'s block of segment rows. -/
abbrev segBlk (c : Dev nD) (t : Fin cfg0.N) : FVec Ideal S2048x512 .f32 := iblk m c 0 t
/-- Point `t`'s block of the transposed unit prototypes. -/
abbrev protoTBlk (c : Dev nD) (t : Fin cfg0.N) : FVec Ideal S512x64 .f32 := iblk m c 1 t
/-- Point `t`'s block of the raw prototypes. -/
abbrev protoBlk (c : Dev nD) (t : Fin cfg0.N) : FVec Ideal S64x512 .f32 := iblk m c 2 t

/-- The three results as functions of the arguments. -/
abbrev scoreArr (c : Dev nD) : FVec Ideal S131072x64 .f32 :=
  logitsArr (logitScaled invTemp) (n := 131072) (segArr m c) (protoArr m c)
abbrev weightArr (c : Dev nD) : FVec Ideal S131072x64 .f32 :=
  weightsArr (logitScaled invTemp) (n := 131072) (segArr m c) (protoArr m c)
abbrev patArr (c : Dev nD) : FVec Ideal S131072x512 .f32 :=
  patternArr (logitScaled invTemp) (n := 131072) (segArr m c) (protoArr m c)

/-! ## The index maps -/

theorem hz : (![0, 0] : Fin 2 → Nat) = fun _ => 0 := funext fun a => by fin_cases a <;> rfl

/-- Over the 64 points: the segment window and the three result windows sit at block row `t`, column 0; the two
    prototype windows at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of block `t` is row `2048·t + p` of the array. -/
def grow (t : Fin cfg0.N) (p : Fin 2048) : Fin 131072 :=
  ⟨t.val * 2048 + p.val, by have ht : t.val < 64 := lt_of_lt_of_eq t.isLt N_0; have := p.isLt; omega⟩

/-! ## The blocks read off the arrays -/

theorem segBlk_apply (c : Dev nD) (t : Fin cfg0.N) (p : Fin 2048) (d : Fin 512) :
    segBlk m c t (ix2 p d) = segArr m c (ix2 (grow t p) d) := by
  show V m c main_arg0 (((cfg0.win 0).blk t).view.emb (ix2 p d)) = _
  rw [V_main_arg0]
  obtain ⟨e0, e1, -⟩ := idx_facts t
  refine congrArg (segArr m c) (funext fun a => Fin.ext ?_)
  match a with
  | ⟨0, _⟩ => show win0_0.index t (0 : Fin 2) * 2048 + 1 * p.val = t.val * 2048 + p.val; omega
  | ⟨1, _⟩ => show win0_0.index t (1 : Fin 2) * 512 + 1 * d.val = d.val; omega

theorem protoBlk_apply (c : Dev nD) (t : Fin cfg0.N) (k : Fin 64) (d : Fin 512) :
    protoBlk m c t (ix2 k d) = protoArr m c (ix2 k d) := by
  show V m c main_arg1 (((cfg0.win 2).blk t).view.emb (ix2 k d)) = _
  rw [V_main_arg1]
  obtain ⟨-, -, -, -, e4, e5, -⟩ := idx_facts t
  refine congrArg (protoArr m c) (funext fun a => Fin.ext ?_)
  match a with
  | ⟨0, _⟩ => show win0_2.index t (0 : Fin 2) * 64 + 1 * k.val = k.val; omega
  | ⟨1, _⟩ => show win0_2.index t (1 : Fin 2) * 512 + 1 * d.val = d.val; omega

/-- The host's operations before the region leave, in the window-1 array, the transpose of the reference's `%4`. -/
theorem protoT_eq (c : Dev nD) :
    (V m c main_v5 : S512x64.Idx → EReal)
      = transpose S512x64 [1, 0] (Cert.ReferenceIdeal.Read.val_main_v4 (F := Ideal) (protoArr m c)) transposes_S64x512_S512x64_1_0 := by
  dsimp only [Gen.V]
  simp only [Gen.hostOps0, Gen.hostOps0_1, List.flatten_cons, List.flatten_nil, List.append_nil, List.cons_append, List.nil_append]
  after_results
  rfl

theorem protoTBlk_apply (c : Dev nD) (t : Fin cfg0.N) (d : Fin 512) (k : Fin 64) :
    protoTBlk m c t (ix2 d k) = unitRow (rowOf (n := 64) (protoArr m c) k) d := by
  have hemb : ((cfg0.win 1).blk t).view.emb (ix2 d k) = (ix2 d k : S512x64.Idx) := by
    obtain ⟨-, -, e2, e3, -⟩ := idx_facts t
    funext a; apply Fin.ext
    match a with
    | ⟨0, _⟩ => show win0_1.index t (0 : Fin 2) * 512 + 1 * d.val = d.val; omega
    | ⟨1, _⟩ => show win0_1.index t (1 : Fin 2) * 64 + 1 * k.val = k.val; omega
  show (V m c main_v5 : S512x64.Idx → EReal) (((cfg0.win 1).blk t).view.emb (ix2 d k)) = _
  rw [hemb, protoT_eq]
  refine (transpose_apply [1, 0] _ transposes_S64x512_S512x64_1_0 (ix2 d k) (ix2 k d)
    (fun b => match b with | ⟨0, _⟩ => rfl | ⟨1, _⟩ => rfl)).trans ?_
  exact Cert.Bank.Ref.unitProto_apply (protoArr m c) k d

/-- The scores of row `p` of block `t` are the scores of row `2048·t + p` of the array. -/
theorem scores_eq (c : Dev nD) (t : Fin cfg0.N) (p : Fin 2048) :
    (fun j : Fin 64 => logitScaled invTemp (fun d => segBlk m c t (ix2 p d)) (fun d => protoTBlk m c t (ix2 d j)))
      = scoresOf (logitScaled invTemp) (n := 131072) (segArr m c) (protoArr m c) (grow t p) :=
  funext fun j => congrArg₂ (logitScaled invTemp) (funext fun d => segBlk_apply m c t p d)
    (funext fun d => protoTBlk_apply m c t d j)

/-! ## What each point writes back -/

/-- Index `(p, k)` of a score or weight block at point `t` sits at `(2048·t + p, k)` of the array. -/
theorem emb4 (t : Fin cfg0.N) (p : Fin 2048) (k : Fin 64) :
    ((cfg0.win 4).blk t).view.emb (ix2 p k) = (ix2 (grow t p) k : S131072x64.Idx) := by
  obtain ⟨-, -, -, -, -, -, -, -, e8, e9, -⟩ := idx_facts t
  funext a; apply Fin.ext
  match a with
  | ⟨0, _⟩ => show win0_4.index t (0 : Fin 2) * 2048 + 1 * p.val = t.val * 2048 + p.val; omega
  | ⟨1, _⟩ => show win0_4.index t (1 : Fin 2) * 64 + 1 * k.val = k.val; omega

theorem emb5 (t : Fin cfg0.N) (p : Fin 2048) (k : Fin 64) :
    ((cfg0.win 5).blk t).view.emb (ix2 p k) = (ix2 (grow t p) k : S131072x64.Idx) := by
  obtain ⟨-, -, -, -, -, -, -, -, -, -, e10, e11⟩ := idx_facts t
  funext a; apply Fin.ext
  match a with
  | ⟨0, _⟩ => show win0_5.index t (0 : Fin 2) * 2048 + 1 * p.val = t.val * 2048 + p.val; omega
  | ⟨1, _⟩ => show win0_5.index t (1 : Fin 2) * 64 + 1 * k.val = k.val; omega

/-- Index `(p, d)` of a pattern block at point `t` sits at `(2048·t + p, d)` of the array. -/
theorem emb3 (t : Fin cfg0.N) (p : Fin 2048) (d : Fin 512) :
    ((cfg0.win 3).blk t).view.emb (ix2 p d) = (ix2 (grow t p) d : S131072x512.Idx) := by
  obtain ⟨-, -, -, -, -, -, e6, e7, -⟩ := idx_facts t
  funext a; apply Fin.ext
  match a with
  | ⟨0, _⟩ => show win0_3.index t (0 : Fin 2) * 2048 + 1 * p.val = t.val * 2048 + p.val; omega
  | ⟨1, _⟩ => show win0_3.index t (1 : Fin 2) * 512 + 1 * d.val = d.val; omega

/-- Point `t` writes back block `t` of the scores. -/
theorem flushed5_eq (c : Dev nD) (t : Fin cfg0.N) :
    (dats m 0 c).flushed 5 t = ((cfg0.win 5).blk t).view.read (Elt Ideal) (scoreArr m c) := by
  rw [Cert.KernelIdeal.Value.flushed5]
  unfold out0_5
  rw [View.canon_unit_zero hz]
  simp only [View.ld_unit_zero (S := S2048x512) hz, View.ld_unit_zero (S := S512x64) hz]
  refine funext fun (j : S2048x64.Idx) => ?_
  obtain ⟨p, k, rfl⟩ : ∃ (p : Fin 2048) (k : Fin 64), j = ix2 p k := ⟨j 0, j 1, eq_ix2 j⟩
  show k0_pay1 (F := Ideal) (segBlk m c t) (protoTBlk m c t) (ix2 p k) = scoreArr m c (((cfg0.win 5).blk t).view.emb (ix2 p k))
  rw [emb5 t p k]
  exact (pay1_apply (segBlk m c t) (protoTBlk m c t) p k).trans (congrFun (scores_eq m c t p) k)

/-- Point `t` writes back block `t` of the weights. -/
theorem flushed4_eq (c : Dev nD) (t : Fin cfg0.N) :
    (dats m 0 c).flushed 4 t = ((cfg0.win 4).blk t).view.read (Elt Ideal) (weightArr m c) := by
  rw [Cert.KernelIdeal.Value.flushed4]
  unfold out0_4
  rw [View.canon_unit_zero hz]
  simp only [View.ld_unit_zero (S := S2048x512) hz, View.ld_unit_zero (S := S512x64) hz]
  refine funext fun (j : S2048x64.Idx) => ?_
  obtain ⟨p, k, rfl⟩ : ∃ (p : Fin 2048) (k : Fin 64), j = ix2 p k := ⟨j 0, j 1, eq_ix2 j⟩
  show k0_pay2 (F := Ideal) (segBlk m c t) (protoTBlk m c t) (ix2 p k) = weightArr m c (((cfg0.win 4).blk t).view.emb (ix2 p k))
  rw [emb4 t p k]
  exact (pay2_apply (segBlk m c t) (protoTBlk m c t) p k).trans (congrArg (fun l => weight l k) (scores_eq m c t p))

/-- Point `t` writes back block `t` of the patterns. -/
theorem flushed3_eq (c : Dev nD) (t : Fin cfg0.N) :
    (dats m 0 c).flushed 3 t = ((cfg0.win 3).blk t).view.read (Elt Ideal) (patArr m c) := by
  rw [Cert.KernelIdeal.Value.flushed3]
  unfold out0_3
  rw [View.canon_unit_zero hz]
  simp only [View.ld_unit_zero (S := S2048x512) hz, View.ld_unit_zero (S := S512x64) hz, View.ld_unit_zero (S := S64x512) hz]
  refine funext fun (j : S2048x512.Idx) => ?_
  obtain ⟨p, d, rfl⟩ : ∃ (p : Fin 2048) (d : Fin 512), j = ix2 p d := ⟨j 0, j 1, eq_ix2 j⟩
  show k0_pay3 (F := Ideal) (segBlk m c t) (protoTBlk m c t) (protoBlk m c t) (ix2 p d) = patArr m c (((cfg0.win 3).blk t).view.emb (ix2 p d))
  rw [emb3 t p d]
  refine (pay3_apply (segBlk m c t) (protoTBlk m c t) (protoBlk m c t) p d).trans ?_
  rw [scores_eq m c t p]
  exact Finset.sum_congr rfl fun k _ => congrArg (_ * ·) (protoBlk_apply m c t k d)

/-! ## The blocks tile the rows -/

theorem mem_blk3 (t : Fin cfg0.N) (i : S131072x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v6_0).slice (win0_3.rect t)).set ↔ _
  rw [View.set_slice_whole, Rect.mem_set_unit]
  exact Iff.rfl

theorem mem_blk4 (t : Fin cfg0.N) (i : S131072x64.Idx) :
    i ∈ ((cfg0.win 4).blk t).view.set ↔ ∀ a : Fin 2, win0_4.index t a * S2048x64.size a ≤ (i a).val ∧ (i a).val < win0_4.index t a * S2048x64.size a + S2048x64.size a := by
  show i ∈ ((View.whole main_v6_1).slice (win0_4.rect t)).set ↔ _
  rw [View.set_slice_whole, Rect.mem_set_unit]
  exact Iff.rfl

theorem mem_blk5 (t : Fin cfg0.N) (i : S131072x64.Idx) :
    i ∈ ((cfg0.win 5).blk t).view.set ↔ ∀ a : Fin 2, win0_5.index t a * S2048x64.size a ≤ (i a).val ∧ (i a).val < win0_5.index t a * S2048x64.size a + S2048x64.size a := by
  show i ∈ ((View.whole main_v6_2).slice (win0_5.rect t)).set ↔ _
  rw [View.set_slice_whole, Rect.mem_set_unit]
  exact Iff.rfl

/-- The point whose block holds row `r`. -/
def pointOf (r : ℕ) (hr : r < 131072) : Fin cfg0.N := ⟨r / 2048, lt_of_lt_of_eq (by omega : r / 2048 < 64) N_0.symm⟩

theorem cover3 (i : S131072x512.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  obtain ⟨-, -, -, -, -, -, e6, e7, -⟩ := idx_facts (pointOf (i 0).val hi0)
  have ht : (pointOf (i 0).val hi0).val = (i 0).val / 2048 := rfl
  refine ⟨pointOf (i 0).val hi0, flush0_3 _, (mem_blk3 _ i).mpr fun a => ?_⟩
  match a with
  | ⟨0, _⟩ => show win0_3.index _ (0 : Fin 2) * 2048 ≤ (i 0).val ∧ (i 0).val < win0_3.index _ (0 : Fin 2) * 2048 + 2048; omega
  | ⟨1, _⟩ => show win0_3.index _ (1 : Fin 2) * 512 ≤ (i 1).val ∧ (i 1).val < win0_3.index _ (1 : Fin 2) * 512 + 512; omega

theorem cover4 (i : S131072x64.Idx) :
    ∃ t : Fin cfg0.N, (cfg0.win 4).flush t = true ∧ i ∈ ((cfg0.win 4).blk t).view.set := by
  have hi0 : (i 0).val < 131072 := (i 0).isLt
  have hi1 : (i 1).val < 64 := (i 1).isLt
  obtain ⟨-, -, -, -, -, -, -, -, e8, e9, -⟩ := idx_facts (pointOf (i 0).val hi0)
  have ht : (pointOf (i 0).val hi0).val = (i 0).val / 2048 := rfl
  refine ⟨pointOf (i 0).val hi0, flush0_4 _, (mem_blk4 _ i).mpr fun a => ?_⟩
  match a with
  | ⟨0, _⟩ => show win0_4.index _ (0 : Fin 2) * 2048 ≤ (i 0).val ∧ (i 0).val < win0_4.index _ (0 : Fin 2) * 2048 + 2048; omega
  | ⟨1, _⟩ => show win0_4.index _ (1 : Fin 2) * 64 ≤ (i 1).val ∧ (i 1).val < win0_4.index _ (1 : Fin 2) * 64 + 64; omega

theorem cover5 (i : S131072x64.Idx) :
    ∃ t : Fin cfg0.N, (cfg0.win 5).flush t = true ∧ i ∈ ((cfg0.win 5).blk t).view.set := by
  have hi0 : (i 0).val < 131072 := (i 0).isLt
  have hi1 : (i 1).val < 64 := (i 1).isLt
  obtain ⟨-, -, -, -, -, -, -, -, -, -, e10, e11⟩ := idx_facts (pointOf (i 0).val hi0)
  have ht : (pointOf (i 0).val hi0).val = (i 0).val / 2048 := rfl
  refine ⟨pointOf (i 0).val hi0, flush0_5 _, (mem_blk5 _ i).mpr fun a => ?_⟩
  match a with
  | ⟨0, _⟩ => show win0_5.index _ (0 : Fin 2) * 2048 ≤ (i 0).val ∧ (i 0).val < win0_5.index _ (0 : Fin 2) * 2048 + 2048; omega
  | ⟨1, _⟩ => show win0_5.index _ (1 : Fin 2) * 64 ≤ (i 1).val ∧ (i 1).val < win0_5.index _ (1 : Fin 2) * 64 + 64; omega

/-! ## The result arrays, and the run -/

theorem final3 (c : Dev nD) : (dats m 0 c).arrAt 3 cfg0.N = patArr m c :=
  (dats m 0 c).arrAt_eq_of_cover 3 (patArr m c) (fun t _ => flushed3_eq m c t) cover3

theorem final4 (c : Dev nD) : (dats m 0 c).arrAt 4 cfg0.N = weightArr m c :=
  (dats m 0 c).arrAt_eq_of_cover 4 (weightArr m c) (fun t _ => flushed4_eq m c t) cover4

theorem final5 (c : Dev nD) : (dats m 0 c).arrAt 5 cfg0.N = scoreArr m c :=
  (dats m 0 c).arrAt_eq_of_cover 5 (scoreArr m c) (fun t _ => flushed5_eq m c t) cover5

/-- The kernel's run: the three result arrays at the specification's arrays (scaled form) of the arguments, the
    arguments unchanged. -/
theorem run : θ_run defs (onTc (τ := τ) (main (F := Ideal))) ⟨m, fun _ => 0, ρ⟩ fun r => ∀ c : Dev nD,
      r.2.mem ((c : Thread nD τ).loc main_v6_0) = patArr m c
      ∧ r.2.mem ((c : Thread nD τ).loc main_v6_1) = weightArr m c
      ∧ r.2.mem ((c : Thread nD τ).loc main_v6_2) = scoreArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final3 m c), (h c).2.1.trans (final4 m c),
      (h c).2.2.1.trans (final5 m c), (h c).2.2.2⟩)
    (Cert.KernelIdeal.Value.run_blocks m ρ)

end Cert.Bank.Arr

end
-- ==== Proof.lean ====
/-
  A prototype bank: normalise, score by cosine similarity over a temperature, softmax, blend the prototypes.

  For segment rows `x` (131072 × 512) and prototypes `Q` (64 × 512), with `‖v‖ε = max (√(∑ v²)) ε` and `v̂ = v / ‖v‖ε`:
      logits (r, k)  = (∑ d, x̂ (r, d) · Q̂ (k, d)) / τ
      w (r, k)       = exp (logits (r, k) − max_j logits (r, j)) / ∑ j, exp (logits (r, j) − max_j logits (r, j))
      pattern (r, d) = ∑ k, w (r, k) · Q (k, d).
  The reference computes exactly this. The kernel, 2048 rows at a grid point, does not normalise the segment rows:
  it multiplies the raw rows with the transposed unit prototypes and scales each score once, by `(1 / ‖x‖ε) · c`,
  where `c` is the reciprocal of the temperature — the constant the kernel's table names `inv_tau_eff`, the exact
  rational `1 / τ = 67108864 / 13421773` for `τ` the f32 word of 0.2 (`preserves` is that one entry's statement).

  At the ideal values the two are one function of the arguments, on every extended real: the inverse of a clamped
  norm is a nonnegative real number, which moves out of the sum over `d`, and dividing by `τ` is multiplying by
  `c` (Proof/BankSpec.lean, `logitScaled_eq_logitCosine`). With equal logits the weights and the patterns are the
  same functions of them. The finiteness of the inputs is not used.

  Proof/BankBlock.lean reads the kernel body's three stored values at an index; Proof/BankArray.lean carries them
  from the 64 blocks to the whole arrays and gives the kernel's run; Proof/BankRef.lean reads the reference's run.
-/
import proofs.«405821_j82695300317837_3_alg».proof.Defs
import proofs.«405821_j82695300317837_3_alg».proof.Proof.Gen.Kernel
import proofs.«405821_j82695300317837_3_alg».proof.Proof.Gen.Kernel.Frame
import proofs.«405821_j82695300317837_3_alg».proof.Proof.Gen.KernelIdeal
import proofs.«405821_j82695300317837_3_alg».proof.Proof.Gen.KernelIdeal.Frame
import proofs.«405821_j82695300317837_3_alg».proof.Proof.Gen.KernelIdeal.Value
import proofs.«405821_j82695300317837_3_alg».proof.Proof.Gen.ReferenceIdeal
import proofs.«405821_j82695300317837_3_alg».proof.Proof.Gen.ReferenceIdeal.Run
import proofs.«405821_j82695300317837_3_alg».proof.Proof.Gen.ReferenceIdeal.Read
import proofs.«405821_j82695300317837_3_alg».proof.Proof.Gen.Pre_finite_inputs
import proofs.«405821_j82695300317837_3_alg».proof.Proof.BankSpec
import proofs.«405821_j82695300317837_3_alg».proof.Proof.BankArray
import proofs.«405821_j82695300317837_3_alg».proof.Proof.BankRef
import Idealize.ShloMosaic.Adequacy
import Idealize.ShloMosaic.Init

noncomputable section

namespace Cert.Proof

open Idealize.ShloMosaic Idealize.ShloMosaic.TcCoe Idealize.SL.Sem Cert.Bank

/-- The word-level kernel runs, its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The one named constant: the table gives `inv_tau_eff` the reciprocal of the temperature. -/
theorem preserves : Cert.preserves_Kernel_KernelIdeal :=
  IdealRules.named_const.statement Cert.KernelIdeal.κ "inv_tau_eff" .f32 0x40A00000#32 ((67108864 / 13421773 : ℝ) : EReal) rfl

/-- The two ways of scoring a row are one function. -/
theorem score_law : logitCosine = logitScaled Cert.Bank.Block.invTemp :=
  funext fun x => funext fun p => (logitScaled_eq_logitCosine x p).symm

/-- The kernel's three result arrays are the specification's arrays with the scaled score, the reference's the same
    arrays with the cosine score, of arguments that agree: equal, by `score_law`. -/
theorem algebraic : Cert.algebraic_KernelIdeal_ReferenceIdeal := by
  intro m ρ m' ρ' _ hagree
  refine ⟨_, _, _, Cert.Bank.Arr.run m ρ, ?_⟩
  refine (θ_run Cert.ReferenceIdeal.defs _ _).mono (fun _ h c => ?_) (Cert.ReferenceIdeal.Value.run (F := Ideal) m' ρ')
  obtain ⟨h24, h23, h12, ha0, ha1⟩ := h c
  refine ⟨h24.trans ?_, h23.trans ?_, h12.trans ?_, ha0, ha1⟩
  · rw [Cert.ReferenceIdeal.Read.val_main_v24_eq, Cert.Bank.Ref.pattern_eq, (hagree c).1, (hagree c).2, score_law]
  · rw [Cert.ReferenceIdeal.Read.val_main_v23_eq, Cert.Bank.Ref.weights_eq, (hagree c).1, (hagree c).2, score_law]
  · rw [Cert.ReferenceIdeal.Read.val_main_v12_eq, Cert.Bank.Ref.logits_eq, (hagree c).1, (hagree c).2, score_law]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
